-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S165x128 : S_.BroadcastsInDim S165x128 (![] : Fin 0 → Fin S165x128.rank)
  reducesTo_S165x128_S_d0_1 : S165x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S64x2 .f32) (main_arg7 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x165 .f32) (main_arg1 : IVec S2x1600000 32) (main_arg2 : FVec F S165x128 .f32) (main_arg3 : FVec F S128 .f32) (main_arg4 : FVec F S128x64 .f32) (main_arg5 : FVec F S64 .f32) (main_arg6 : FVec F S64x2 .f32) (main_arg7 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S165x128 .f32 := Host.absf main_arg2
  let main_cst_0 : FVec F S_ .f32 := constant S_ .f32 0x7F800000#32
  let main_v5 : FVec F S165x128 .f32 := broadcastInDim S165x128 ![] bcast_S_S165x128 main_cst_0
  let main_v6 : IVec S165x128 1 := cmpf .olt main_v4 main_v5
  let main_c_1 : IVec S_ 1 := constantI S_ 1 1#1
  let main_v7 : IVec S_ 1 := (fun x v => Host.reduce IntOp.andi x v reducesTo_S165x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x165 : Shape := ⟨2, ![10000, 165]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S20000x128 : Shape := ⟨2, ![20000, 128]⟩
abbrev S20000x64 : Shape := ⟨2, ![20000, 64]⟩
abbrev S1700000x64 : Shape := ⟨2, ![1700000, 64]⟩
abbrev S1x64 : Shape := ⟨2, ![1, 64]⟩
abbrev S1x2 : Shape := ⟨2, ![1, 2]⟩
abbrev S100000x2 : Shape := ⟨2, ![100000, 2]⟩
abbrev S10000x64 : Shape := ⟨2, ![10000, 64]⟩
abbrev S10000x2 : Shape := ⟨2, ![10000, 2]⟩

abbrev nBuf : Space → Nat
  | .hbm => 88
  | .vmem => 18
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S100000, .i32⟩
  | .hbm, ⟨9, _⟩ => ⟨S1x100000, .i32⟩
  | .hbm, ⟨10, _⟩ => ⟨S1x100000, .i32⟩
  | .hbm, ⟨11, _⟩ => ⟨S2x100000, .i32⟩
  | .hbm, ⟨12, _⟩ => ⟨S2x1700000, .i32⟩
  | .hbm, ⟨13, _⟩ => ⟨S1x1700000, .i32⟩
  | .hbm, ⟨14, _⟩ => ⟨S1700000, .i32⟩
  | .hbm, ⟨15, _⟩ => ⟨S1x1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S1x2, .f32⟩
  | .hbm, ⟨87, _⟩ => ⟨S100000x2, .f32⟩
  | .local _ .vmem, ⟨0, _⟩ => ⟨S10000x165, .f32⟩
  | .local _ .vmem, ⟨1, _⟩ => ⟨S10000x165, .f32⟩
  | .local _ .vmem, ⟨2, _⟩ => ⟨S165x128, .f32⟩
  | .local _ .vmem, ⟨3, _⟩ => ⟨S10000x128, .f32⟩
  | .local _ .vmem, ⟨4, _⟩ => ⟨S10000x128, .f32⟩
  | .local _ .vmem, ⟨5, _⟩ => ⟨S20000x128, .f32⟩
  | .local _ .vmem, ⟨6, _⟩ => ⟨S20000x128, .f32⟩
  | .local _ .vmem, ⟨7, _⟩ => ⟨S1x128, .f32⟩
  | .local _ .vmem, ⟨8, _⟩ => ⟨S128x64, .f32⟩
  | .local _ .vmem, ⟨9, _⟩ => ⟨S20000x64, .f32⟩
  | .local _ .vmem, ⟨10, _⟩ => ⟨S20000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x2, .f32⟩
  | .local _ .vmem, ⟨15, _⟩ => ⟨S1x2, .f32⟩
  | .local _ .vmem, ⟨16, _⟩ => ⟨S10000x2, .f32⟩
  | .local _ .vmem, ⟨17, _⟩ => ⟨S10000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x165_S10000x165_0_0 : ∀ a, (![0, 0] : Fin 2 → Nat) a + S10000x165.size a ≤ S10000x165.size a
  h_S10000x165 : 0 < S10000x165.numel
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  inb_S128x64_S128x64_0_0 : ∀ a, (![0, 0] : Fin 2 → Nat) a + S128x64.size a ≤ S128x64.size a
  h_S128x64 : 0 < S128x64.numel
  inb_S20000x64_S20000x64_0_0 : ∀ a, (![0, 0] : Fin 2 → Nat) a + S20000x64.size a ≤ S20000x64.size a
  h_S20000x64 : 0 < S20000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2_S1x2 : S2.ShapeCasts S1x2
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x165_S165x128_S10000x128_1_0_0_1_n_n_wf : DotDims.WF S10000x165 S165x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S20000x128_S128x64_S20000x64_1_0_0_1_n_n_wf : DotDims.WF S20000x128 S128x64 S20000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x165.size a ≤ S100000x165.size a
  hwx0_0 : ∀ i : grid0.Coords, EltTy.bits .f32 = 32 ∨ (Rect.block (s := S100000x165) S10000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x128.size a ≤ S165x128.size a
  hwx0_1 : ∀ i : grid0.Coords, EltTy.bits .f32 = 32 ∨ (Rect.block (s := S165x128) S165x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S100000x128.size a
  hwx1_0 : ∀ i : grid1.Coords, EltTy.bits .f32 = 32 ∨ (Rect.block (s := S100000x128) S20000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x2.size a ≤ S100000x2.size a
  hwx2_4 : ∀ i : grid2.Coords, EltTy.bits .f32 = 32 ∨ (Rect.block (s := S100000x2) S10000x2.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x165_S165x128_S10000x128_1_0_0_1_n_n : DotDims S10000x165 S165x128 S10000x128 where
  lhsContracting := [1]
  rhsContracting := [0]
  lhsNonContracting := [0]
  rhsNonContracting := [1]
  lhsBatch := []
  rhsBatch := []
  wf := dot_S10000x165_S165x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S10000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 100
  | .vmem => 0
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S100000, .i32⟩
  | .hbm, ⟨9, _⟩ => ⟨S1x100000, .i32⟩
  | .hbm, ⟨10, _⟩ => ⟨S1x100000, .i32⟩
  | .hbm, ⟨11, _⟩ => ⟨S2x100000, .i32⟩
  | .hbm, ⟨12, _⟩ => ⟨S2x1700000, .i32⟩
  | .hbm, ⟨13, _⟩ => ⟨S1x1700000, .i32⟩
  | .hbm, ⟨14, _⟩ => ⟨S1700000, .i32⟩
  | .hbm, ⟨15, _⟩ => ⟨S1x1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x2, .f32⟩
  | .hbm, ⟨97, _⟩ => ⟨S1x2, .f32⟩
  | .hbm, ⟨98, _⟩ => ⟨S100000x2, .f32⟩
  | .hbm, ⟨99, _⟩ => ⟨S100000x2, .f32⟩
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x165_S165x128_S100000x128_1_0_0_1_n_n_wf : DotDims.WF S100000x165 S165x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.DenseLayers.lean ====
/-
  The three dense layers of the network as functions of whole arrays, on the extended reals, and what the matrix
  unit leaves at one entry of a block for each of them.

  * `prodArr X W`: the product of an [N, K] array with a [K, M] array, entry (r, q) the sum over `c` of
    `X (r, c) · W (c, q)`.
  * `reluProdArr A b W`: the same product after a bias row `b` ([1, K]) has been added to every row of `A` and the
    sum clipped below at zero: entry (r, q) is the sum over `c` of `max (A (r, c) + b (0, c)) 0 · W (c, q)`.
  * `reluProdBiasArr A b W o`: that, plus an output bias row `o` ([1, M]) added to every row of the product.

  A block of rows of each of these is the same function of the corresponding block of rows of the first operand, which
  is why the kernel may compute them tile by tile. At the ideal values a change of float format is the identity and
  the product into a zero accumulator is the plain finite sum, so each kernel body, read at one entry of its block,
  is the layer's formula over the block.
-/
import Idealize.ShloMosaic.PureOps.Ideal.Laws
import Idealize.ShloMosaic.Lib.ValueIdx
import Idealize.ShloMosaic.Lib.ValueLayout
import Idealize.ShloMosaic.Lib.Pipeline.Value
import proofs.«403887_j75977971466924_4_alg».proof.Proof.LibDotPlain

noncomputable section

open scoped BigOperators

namespace Cert.DenseLayers

open Idealize.ShloMosaic Idealize.ShloMosaic.ValueIdx

variable {N K M : Nat}

/-- The product of an [N, K] array with a [K, M] array. -/
def prodArr (X : (⟨2, ![N, K]⟩ : Shape).Idx → EReal) (W : (⟨2, ![K, M]⟩ : Shape).Idx → EReal) :
    (⟨2, ![N, M]⟩ : Shape).Idx → EReal :=
  fun i => ∑ c : Fin K, X (ix2 (i 0) c) * W (ix2 c (i 1))

/-- One entry of a row after the bias is added and the sum clipped below at zero. -/
def act (a b : EReal) : EReal := max (a + b) 0

/-- The product of `max (A + b, 0)` (the bias row `b` added to every row of `A`) with a [K, M] array. -/
def reluProdArr (A : (⟨2, ![N, K]⟩ : Shape).Idx → EReal) (b : (⟨2, ![1, K]⟩ : Shape).Idx → EReal)
    (W : (⟨2, ![K, M]⟩ : Shape).Idx → EReal) : (⟨2, ![N, M]⟩ : Shape).Idx → EReal :=
  fun i => ∑ c : Fin K, act (A (ix2 (i 0) c)) (b (ix2 (0 : Fin 1) c)) * W (ix2 c (i 1))

/-- That product with an output bias row `o` added to every row. -/
def reluProdBiasArr (A : (⟨2, ![N, K]⟩ : Shape).Idx → EReal) (b : (⟨2, ![1, K]⟩ : Shape).Idx → EReal)
    (W : (⟨2, ![K, M]⟩ : Shape).Idx → EReal) (o : (⟨2, ![1, M]⟩ : Shape).Idx → EReal) :
    (⟨2, ![N, M]⟩ : Shape).Idx → EReal :=
  fun i => (∑ c : Fin K, act (A (ix2 (i 0) c)) (b (ix2 (0 : Fin 1) c)) * W (ix2 c (i 1))) + o (ix2 (0 : Fin 1) (i 1))

/-- A vector [K] laid as the one row of a [1, K] array. -/
def rowOf (v : (⟨1, ![K]⟩ : Shape).Idx → EReal) : (⟨2, ![1, K]⟩ : Shape).Idx → EReal := fun j => v (ix1 (j 1))

theorem prodArr_apply (X : (⟨2, ![N, K]⟩ : Shape).Idx → EReal) (W : (⟨2, ![K, M]⟩ : Shape).Idx → EReal)
    (r : Fin N) (q : Fin M) : prodArr X W (ix2 r q) = ∑ c : Fin K, X (ix2 r c) * W (ix2 c q) := rfl

theorem reluProdArr_apply (A : (⟨2, ![N, K]⟩ : Shape).Idx → EReal) (b : (⟨2, ![1, K]⟩ : Shape).Idx → EReal)
    (W : (⟨2, ![K, M]⟩ : Shape).Idx → EReal) (r : Fin N) (q : Fin M) :
    reluProdArr A b W (ix2 r q) = ∑ c : Fin K, act (A (ix2 r c)) (b (ix2 (0 : Fin 1) c)) * W (ix2 c q) := rfl

theorem reluProdBiasArr_apply (A : (⟨2, ![N, K]⟩ : Shape).Idx → EReal) (b : (⟨2, ![1, K]⟩ : Shape).Idx → EReal)
    (W : (⟨2, ![K, M]⟩ : Shape).Idx → EReal) (o : (⟨2, ![1, M]⟩ : Shape).Idx → EReal) (r : Fin N) (q : Fin M) :
    reluProdBiasArr A b W o (ix2 r q)
      = (∑ c : Fin K, act (A (ix2 r c)) (b (ix2 (0 : Fin 1) c)) * W (ix2 c q)) + o (ix2 (0 : Fin 1) q) := rfl

/-! ## The host's product at one entry -/

/-- The host's product of an [N, K] array with a [K, M] array (the left operand's last axis against the right
    operand's first), at (a, b): the sum over the contracted coordinate `c` of `A (a, c) · B (c, b)`. -/
theorem hostDot_apply {φ₁ φ₂ : FTy}
    (w : DotDims.WF ⟨2, ![N, K]⟩ ⟨2, ![K, M]⟩ ⟨2, ![N, M]⟩ [1] [0] [0] [1] [] [])
    (prec : Option ContractPrecision) (A : FVec Ideal ⟨2, ![N, K]⟩ φ₁) (B : FVec Ideal ⟨2, ![K, M]⟩ φ₂)
    (a : Fin N) (b : Fin M) :
    Host.dotGeneral (⟨[1], [0], [0], [1], [], [], w⟩ : DotDims ⟨2, ![N, K]⟩ ⟨2, ![K, M]⟩ ⟨2, ![N, M]⟩) prec A B (ix2 a b)
      = ∑ c : Fin K, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![N, K]⟩ ⟨2, ![K, M]⟩ ⟨2, ![N, M]⟩) K rfl rfl).symm]
  refine Finset.sum_congr rfl fun c _ => ?_
  have c2 := contrEquiv1_symm_val
    (⟨[1], [0], [0], [1], [], [], w⟩ : DotDims ⟨2, ![N, K]⟩ ⟨2, ![K, M]⟩ ⟨2, ![N, M]⟩) K rfl rfl c
  have l2 : (⟨[1], [0], [0], [1], [], [], w⟩ : DotDims ⟨2, ![N, K]⟩ ⟨2, ![K, M]⟩ ⟨2, ![N, M]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![N, K]⟩ ⟨2, ![K, M]⟩ ⟨2, ![N, M]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The kernel bodies at one entry of a block -/

/-- The first layer's body: both operands narrowed (the identity on the extended reals) and multiplied into a zero
    accumulator. -/
theorem plain_body_apply
    (w : DotDims.WF ⟨2, ![N, K]⟩ ⟨2, ![K, M]⟩ ⟨2, ![N, M]⟩ [1] [0] [0] [1] [] [])
    (h : FTy.bf16.bits < FTy.f32.bits)
    (A : FVec Ideal ⟨2, ![N, K]⟩ .f32) (B : FVec Ideal ⟨2, ![K, M]⟩ .f32) (a : Fin N) (b : Fin M) :
    matmul (⟨[1], [0], [0], [1], [], [], w⟩ : DotDims ⟨2, ![N, K]⟩ ⟨2, ![K, M]⟩ ⟨2, ![N, M]⟩) none
        (truncf .bf16 A h) (truncf .bf16 B h) (constant ⟨2, ![N, M]⟩ .f32 0x00000000#32) (ix2 a b)
      = ∑ c : Fin K, A (ix2 a c) * B (ix2 c b) := by
  refine (Cert.LibDotPlain.matmul_zero_apply w none (truncf .bf16 A h) (truncf .bf16 B h) a b).trans ?_
  rfl

/-- The activation the second and third bodies feed to the matrix unit, at one entry: the block's entry plus the bias
    row's, clipped below at zero. -/
theorem act_body_apply
    (hA : (⟨2, ![N, K]⟩ : Shape).ShapeCasts ⟨2, ![N, K]⟩) (hv : (⟨2, ![1, K]⟩ : Shape).ShapeCasts ⟨2, ![1, K]⟩)
    (hb : (⟨2, ![1, K]⟩ : Shape).Broadcasts ⟨2, ![N, K]⟩)
    (A : FVec Ideal ⟨2, ![N, K]⟩ .f32) (v : FVec Ideal ⟨2, ![1, K]⟩ .f32) (a : Fin N) (c : Fin K) :
    maximumf (addf (shapeCast ⟨2, ![N, K]⟩ A hA) (broadcastTo ⟨2, ![N, K]⟩ (shapeCast ⟨2, ![1, K]⟩ v hv) hb))
        (broadcast ⟨2, ![N, K]⟩ (Scalar.ofBits (F := Ideal) .f32 0x00000000#32)) (ix2 a c)
      = act (A (ix2 a c)) (v (ix2 (0 : Fin 1) c)) := by
  rw [shapeCast_self, shapeCast_self, maximumf_apply, addf_apply, broadcastTo_1b_ab_apply, broadcast_apply]
  show max (A (ix2 a c) + v (ix2 (0 : Fin 1) c)) (Ideal.ofBits .f32 0x00000000#32) = _
  rw [Ideal.ofBits_zero_f32]
  rfl

/-- The second layer's body at one entry. -/
theorem relu_body_apply
    (w : DotDims.WF ⟨2, ![N, K]⟩ ⟨2, ![K, M]⟩ ⟨2, ![N, M]⟩ [1] [0] [0] [1] [] [])
    (h : FTy.bf16.bits < FTy.f32.bits)
    (hA : (⟨2, ![N, K]⟩ : Shape).ShapeCasts ⟨2, ![N, K]⟩) (hv : (⟨2, ![1, K]⟩ : Shape).ShapeCasts ⟨2, ![1, K]⟩)
    (hb : (⟨2, ![1, K]⟩ : Shape).Broadcasts ⟨2, ![N, K]⟩)
    (A : FVec Ideal ⟨2, ![N, K]⟩ .f32) (v : FVec Ideal ⟨2, ![1, K]⟩ .f32) (B : FVec Ideal ⟨2, ![K, M]⟩ .f32)
    (a : Fin N) (b : Fin M) :
    matmul (⟨[1], [0], [0], [1], [], [], w⟩ : DotDims ⟨2, ![N, K]⟩ ⟨2, ![K, M]⟩ ⟨2, ![N, M]⟩) none
        (truncf .bf16 (maximumf (addf (shapeCast ⟨2, ![N, K]⟩ A hA)
            (broadcastTo ⟨2, ![N, K]⟩ (shapeCast ⟨2, ![1, K]⟩ v hv) hb))
          (broadcast ⟨2, ![N, K]⟩ (Scalar.ofBits (F := Ideal) .f32 0x00000000#32))) h)
        (truncf .bf16 B h) (constant ⟨2, ![N, M]⟩ .f32 0x00000000#32) (ix2 a b)
      = ∑ c : Fin K, act (A (ix2 a c)) (v (ix2 (0 : Fin 1) c)) * B (ix2 c b) := by
  refine (Cert.LibDotPlain.matmul_zero_apply w none _ (truncf .bf16 B h) a b).trans ?_
  refine Finset.sum_congr rfl fun c _ => ?_
  rw [truncf_apply, truncf_apply, act_body_apply]

/-- The third layer's body at one entry: the second's, plus the output bias row's entry. -/
theorem relu_bias_body_apply
    (w : DotDims.WF ⟨2, ![N, K]⟩ ⟨2, ![K, M]⟩ ⟨2, ![N, M]⟩ [1] [0] [0] [1] [] [])
    (h : FTy.bf16.bits < FTy.f32.bits)
    (hA : (⟨2, ![N, K]⟩ : Shape).ShapeCasts ⟨2, ![N, K]⟩) (hv : (⟨2, ![1, K]⟩ : Shape).ShapeCasts ⟨2, ![1, K]⟩)
    (hb : (⟨2, ![1, K]⟩ : Shape).Broadcasts ⟨2, ![N, K]⟩)
    (ho : (⟨2, ![1, M]⟩ : Shape).ShapeCasts ⟨2, ![1, M]⟩) (hbo : (⟨2, ![1, M]⟩ : Shape).Broadcasts ⟨2, ![N, M]⟩)
    (A : FVec Ideal ⟨2, ![N, K]⟩ .f32) (v : FVec Ideal ⟨2, ![1, K]⟩ .f32) (B : FVec Ideal ⟨2, ![K, M]⟩ .f32)
    (o : FVec Ideal ⟨2, ![1, M]⟩ .f32) (a : Fin N) (b : Fin M) :
    addf (matmul (⟨[1], [0], [0], [1], [], [], w⟩ : DotDims ⟨2, ![N, K]⟩ ⟨2, ![K, M]⟩ ⟨2, ![N, M]⟩) none
        (truncf .bf16 (maximumf (addf (shapeCast ⟨2, ![N, K]⟩ A hA)
            (broadcastTo ⟨2, ![N, K]⟩ (shapeCast ⟨2, ![1, K]⟩ v hv) hb))
          (broadcast ⟨2, ![N, K]⟩ (Scalar.ofBits (F := Ideal) .f32 0x00000000#32))) h)
        (truncf .bf16 B h) (constant ⟨2, ![N, M]⟩ .f32 0x00000000#32))
      (broadcastTo ⟨2, ![N, M]⟩ (shapeCast ⟨2, ![1, M]⟩ o ho) hbo) (ix2 a b)
      = (∑ c : Fin K, act (A (ix2 a c)) (v (ix2 (0 : Fin 1) c)) * B (ix2 c b)) + o (ix2 (0 : Fin 1) b) := by
  rw [addf_apply, relu_body_apply, shapeCast_self, broadcastTo_1b_ab_apply]

end Cert.DenseLayers

end
-- ==== Proof.Layer1.lean ====
/-
  The first dense layer as the kernel computes it. The [100000, 165] features are cut into ten tiles of 10000 rows;
  at tile `t` the body multiplies rows `10000 t … 10000 t + 9999` with the whole [165, 128] weight and writes the
  [10000, 128] block back as rows `10000 t …` of the result. A row of a product depends only on the same row of the left
  operand, so the block point `t` writes is block `t` of the whole product `prodArr x W`, and the ten blocks tile the
  result: after the region the result array is `prodArr x W`, whatever the contents `V` the region is entered with.
-/
import proofs.«403887_j75977971466924_4_alg».proof.Proof.Gen.KernelIdeal.Frame
import proofs.«403887_j75977971466924_4_alg».proof.Proof.DenseLayers
import Idealize.ShloMosaic.Lib.Pipeline.Value

set_option maxRecDepth 16384

noncomputable section

namespace Cert.KernelIdeal.Layer1

open Cert.KernelIdeal Cert.KernelIdeal.Gen Cert.DenseLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block coordinates at point `t`: the features' and the result's row block is `t`, every other coordinate 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features and the weight as the region finds them. -/
abbrev xArr (c : Dev nD) : S100000x165.Idx → EReal := V c main_arg0
abbrev wArr (c : Dev nD) : S165x128.Idx → EReal := V c main_arg2
/-- Their blocks at point `t`. -/
abbrev xBlk (c : Dev nD) (t : Fin cfg0.N) : Vec Ideal S10000x165 .f32 := iblk0 V c 0 t
abbrev wBlk (c : Dev nD) (t : Fin cfg0.N) : Vec Ideal S165x128 .f32 := iblk0 V c 1 t

theorem row_lt (t : Fin cfg0.N) (p : Fin 10000) : 10000 * t.val + p.val < 100000 := by
  have hN : cfg0.N = 10 := N_0
  have := t.isLt
  have := p.isLt
  omega

/-- The features' block at point `t` is rows `10000 t …` of the features. -/
theorem xBlk_apply (c : Dev nD) (t : Fin cfg0.N) (p : Fin 10000) (k : Fin 165) :
    xBlk V c t (ix2 p k) = xArr V c (ix2 (⟨10000 * t.val + p.val, row_lt t p⟩ : Fin 100000) k) := by
  obtain ⟨e0, e1, -⟩ := idx_facts t
  show V c main_arg0 (((cfg0.win 0).blk t).view.emb (ix2 p k)) = V c main_arg0 _
  refine congrArg (V c main_arg0) (funext fun a => Fin.ext ?_)
  match a with
  | ⟨0, _⟩ => show win0_0.index t (0 : Fin 2) * 10000 + 1 * p.val = 10000 * t.val + p.val; omega
  | ⟨1, _⟩ => show win0_0.index t (1 : Fin 2) * 165 + 1 * k.val = k.val; omega

/-- The weight's block at every point is the whole weight. -/
theorem wBlk_apply (c : Dev nD) (t : Fin cfg0.N) (k : Fin 165) (q : Fin 128) :
    wBlk V c t (ix2 k q) = wArr V c (ix2 k q) := by
  obtain ⟨-, -, e2, e3, -⟩ := idx_facts t
  show V c main_arg2 (((cfg0.win 1).blk t).view.emb (ix2 k q)) = V c main_arg2 _
  refine congrArg (V c main_arg2) (funext fun a => Fin.ext ?_)
  match a with
  | ⟨0, _⟩ => show win0_1.index t (0 : Fin 2) * 165 + 1 * k.val = k.val; omega
  | ⟨1, _⟩ => show win0_1.index t (1 : Fin 2) * 128 + 1 * q.val = q.val; omega

/-- WHAT POINT `t` WRITES BACK is block `t` of the product of the features with the weight. -/
theorem flushed_eq (c : Dev nD) (t : Fin cfg0.N) :
    (dat0 V c).flushed 2 t = ((cfg0.win 2).blk t).view.read (Elt Ideal) (prodArr (xArr V c) (wArr V c)) := by
  show (cfg0.win 2).cut (grid0.coords t) ((dat0 V c).after 2 t) = _
  rw [after0_2]
  unfold out0_2
  rw [View.canon_unit_zero hz]
  simp only [View.ld_unit_zero (S := S10000x165) hz, View.ld_unit_zero (S := S165x128) hz]
  obtain ⟨-, -, -, -, e4, e5⟩ := idx_facts t
  refine funext fun (j : S10000x128.Idx) => ?_
  obtain ⟨p, q, rfl⟩ : ∃ (p : Fin 10000) (q : Fin 128), j = ix2 p q := ⟨j 0, j 1, eq_ix2 j⟩
  show k0_pay1 (xBlk V c t) (wBlk V c t) (ix2 p q)
    = prodArr (xArr V c) (wArr V c) (((cfg0.win 2).blk t).view.emb (ix2 p q))
  have hemb : ((cfg0.win 2).blk t).view.emb (ix2 p q) = ix2 (⟨10000 * t.val + p.val, row_lt t p⟩ : Fin 100000) q :=
    funext fun a => Fin.ext (by
      match a with
      | ⟨0, _⟩ => show win0_2.index t (0 : Fin 2) * 10000 + 1 * p.val = 10000 * t.val + p.val; omega
      | ⟨1, _⟩ => show win0_2.index t (1 : Fin 2) * 128 + 1 * q.val = q.val; omega)
  rw [hemb, prodArr_apply]
  unfold k0_pay1
  refine (plain_body_apply _ bitsLt_bf16_f32 (xBlk V c t) (wBlk V c t) p q).trans ?_
  refine Finset.sum_congr rfl fun k _ => ?_
  rw [xBlk_apply V c t p k, wBlk_apply V c t k q]

/-- An index of the result is in point `t`'s block iff its row is among rows `10000 t …`. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every index of the result lies in the block of the point its row's tile names. -/
theorem cover (i : S100000x128.Idx) :
    ∃ t : Fin cfg0.N, (cfg0.win 2).flush t = true ∧ i ∈ ((cfg0.win 2).blk t).view.set := by
  have hN : cfg0.N = 10 := N_0
  have h0 : (i 0).val < 100000 := idx2_lt0 i
  have h1 : (i 1).val < 128 := idx2_lt1 i
  have ht : (i 0).val / 10000 < cfg0.N := by omega
  obtain ⟨-, -, -, -, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    omega

/-- THE RESULT ARRAY after the region is the product of the features with the weight. -/
theorem array (c : Dev nD) : (dat0 V c).arrAt 2 cfg0.N = prodArr (xArr V c) (wArr V c) :=
  (dat0 V c).arrAt_eq_of_cover 2 (prodArr (xArr V c) (wArr V c)) (fun t _ => flushed_eq V c t) cover

end Cert.KernelIdeal.Layer1

end
-- ==== Proof.Layer2.lean ====
/-
  The second dense layer as the kernel computes it. The aggregated [100000, 128] features are cut into five tiles of
  20000 rows; at tile `t` the body adds the bias row to every row of the tile, clips the sums below at zero, multiplies
  with the whole [128, 64] weight and writes the [20000, 64] block back as rows `20000 t …` of the result. Each row of
  the result depends only on the same row of the features, so the block point `t` writes is block `t` of
  `reluProdArr a b W`, and the five blocks tile the result: after the region the result array is `reluProdArr a b W`
  of the arrays the region is entered with.
-/
import proofs.«403887_j75977971466924_4_alg».proof.Proof.Gen.KernelIdeal.Frame
import proofs.«403887_j75977971466924_4_alg».proof.Proof.DenseLayers
import Idealize.ShloMosaic.Lib.Pipeline.Value

set_option maxRecDepth 16384

noncomputable section

namespace Cert.KernelIdeal.Layer2

open Cert.KernelIdeal Cert.KernelIdeal.Gen Cert.DenseLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block coordinates at point `t`: the features' and the result's row block is `t`, every other coordinate 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregated features, the bias row and the weight as the region finds them. -/
abbrev aArr (c : Dev nD) : S100000x128.Idx → EReal := V c main_v45
abbrev bArr (c : Dev nD) : S1x128.Idx → EReal := V c main_v46
abbrev wArr (c : Dev nD) : S128x64.Idx → EReal := V c main_arg4
/-- Their blocks at point `t`. -/
abbrev aBlk (c : Dev nD) (t : Fin cfg1.N) : Vec Ideal S20000x128 .f32 := iblk1 V c 0 t
abbrev bBlk (c : Dev nD) (t : Fin cfg1.N) : Vec Ideal S1x128 .f32 := iblk1 V c 1 t
abbrev wBlk (c : Dev nD) (t : Fin cfg1.N) : Vec Ideal S128x64 .f32 := iblk1 V c 2 t

theorem row_lt (t : Fin cfg1.N) (p : Fin 20000) : 20000 * t.val + p.val < 100000 := by
  have hN : cfg1.N = 5 := N_1
  have := t.isLt
  have := p.isLt
  omega

/-- The features' block at point `t` is rows `20000 t …` of the features. -/
theorem aBlk_apply (c : Dev nD) (t : Fin cfg1.N) (p : Fin 20000) (k : Fin 128) :
    aBlk V c t (ix2 p k) = aArr V c (ix2 (⟨20000 * t.val + p.val, row_lt t p⟩ : Fin 100000) k) := by
  obtain ⟨e0, e1, -⟩ := idx_facts t
  show V c main_v45 (((cfg1.win 0).blk t).view.emb (ix2 p k)) = V c main_v45 _
  refine congrArg (V c main_v45) (funext fun a => Fin.ext ?_)
  match a with
  | ⟨0, _⟩ => show win1_0.index t (0 : Fin 2) * 20000 + 1 * p.val = 20000 * t.val + p.val; omega
  | ⟨1, _⟩ => show win1_0.index t (1 : Fin 2) * 128 + 1 * k.val = k.val; omega

/-- The bias row's block at every point is the whole row. -/
theorem bBlk_apply (c : Dev nD) (t : Fin cfg1.N) (k : Fin 128) :
    bBlk V c t (ix2 (0 : Fin 1) k) = bArr V c (ix2 (0 : Fin 1) k) := by
  obtain ⟨-, -, e2, e3, -⟩ := idx_facts t
  show V c main_v46 (((cfg1.win 1).blk t).view.emb (ix2 (0 : Fin 1) k)) = V c main_v46 _
  refine congrArg (V c main_v46) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- The weight's block at every point is the whole weight. -/
theorem wBlk_apply (c : Dev nD) (t : Fin cfg1.N) (k : Fin 128) (q : Fin 64) :
    wBlk V c t (ix2 k q) = wArr V c (ix2 k q) := by
  obtain ⟨-, -, -, -, e4, e5, -⟩ := idx_facts t
  show V c main_arg4 (((cfg1.win 2).blk t).view.emb (ix2 k q)) = V c main_arg4 _
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- WHAT POINT `t` WRITES BACK is block `t` of the layer of the arrays the region finds. -/
theorem flushed_eq (c : Dev nD) (t : Fin cfg1.N) :
    (dat1 V c).flushed 3 t
      = ((cfg1.win 3).blk t).view.read (Elt Ideal) (reluProdArr (aArr V c) (bArr V c) (wArr V c)) := by
  show (cfg1.win 3).cut (grid1.coords t) ((dat1 V c).after 3 t) = _
  rw [after1_3]
  unfold out1_3
  rw [View.canon_unit_zero hz]
  simp only [View.ld_unit_zero (S := S20000x128) hz, View.ld_unit_zero (S := S1x128) hz, View.ld_unit_zero (S := S128x64) hz]
  obtain ⟨-, -, -, -, -, -, e6, e7⟩ := idx_facts t
  refine funext fun (j : S20000x64.Idx) => ?_
  obtain ⟨p, q, rfl⟩ : ∃ (p : Fin 20000) (q : Fin 64), j = ix2 p q := ⟨j 0, j 1, eq_ix2 j⟩
  show k1_pay1 (aBlk V c t) (bBlk V c t) (wBlk V c t) (ix2 p q)
    = reluProdArr (aArr V c) (bArr V c) (wArr V c) (((cfg1.win 3).blk t).view.emb (ix2 p q))
  have hemb : ((cfg1.win 3).blk t).view.emb (ix2 p q) = ix2 (⟨20000 * t.val + p.val, row_lt t p⟩ : Fin 100000) q :=
    funext fun a => Fin.ext (by
      match a with
      | ⟨0, _⟩ => show win1_3.index t (0 : Fin 2) * 20000 + 1 * p.val = 20000 * t.val + p.val; omega
      | ⟨1, _⟩ => show win1_3.index t (1 : Fin 2) * 64 + 1 * q.val = q.val; omega)
  rw [hemb, reluProdArr_apply]
  unfold k1_pay1
  refine (relu_body_apply _ bitsLt_bf16_f32 shapeCasts_S20000x128_S20000x128 shapeCasts_S1x128_S1x128
    broadcasts_S1x128_S20000x128 (aBlk V c t) (bBlk V c t) (wBlk V c t) p q).trans ?_
  refine Finset.sum_congr rfl fun k _ => ?_
  rw [aBlk_apply V c t p k, bBlk_apply V c t k, wBlk_apply V c t k q]

/-- An index of the result is in point `t`'s block iff its row is among rows `20000 t …`. -/
theorem mem_blk (t : Fin cfg1.N) (i : S100000x64.Idx) :
    i ∈ ((cfg1.win 3).blk t).view.set ↔ ∀ a : Fin 2, win1_3.index t a * S20000x64.size a ≤ (i a).val ∧ (i a).val < win1_3.index t a * S20000x64.size a + S20000x64.size a := by
  show i ∈ ((View.whole main_v47).slice (win1_3.rect t)).set ↔ _
  rw [View.set_slice_whole, Rect.mem_set_unit]
  exact Iff.rfl

/-- Every index of the result lies in the block of the point its row's tile names. -/
theorem cover (i : S100000x64.Idx) :
    ∃ t : Fin cfg1.N, (cfg1.win 3).flush t = true ∧ i ∈ ((cfg1.win 3).blk t).view.set := by
  have hN : cfg1.N = 5 := N_1
  have h0 : (i 0).val < 100000 := idx2_lt0 i
  have h1 : (i 1).val < 64 := idx2_lt1 i
  have ht : (i 0).val / 20000 < cfg1.N := by omega
  obtain ⟨-, -, -, -, -, -, e6, e7⟩ := idx_facts ⟨(i 0).val / 20000, ht⟩
  refine ⟨⟨(i 0).val / 20000, ht⟩, flush1_3 _, ?_⟩
  rw [mem_blk]
  intro a
  match a with
  | ⟨0, _⟩ =>
    show win1_3.index ⟨(i 0).val / 20000, ht⟩ (0 : Fin 2) * 20000 ≤ (i 0).val ∧ (i 0).val < win1_3.index ⟨(i 0).val / 20000, ht⟩ (0 : Fin 2) * 20000 + 20000
    rw [e6]
    show (i 0).val / 20000 * 20000 ≤ (i 0).val ∧ (i 0).val < (i 0).val / 20000 * 20000 + 20000
    omega
  | ⟨1, _⟩ =>
    show win1_3.index ⟨(i 0).val / 20000, ht⟩ (1 : Fin 2) * 64 ≤ (i 1).val ∧ (i 1).val < win1_3.index ⟨(i 0).val / 20000, ht⟩ (1 : Fin 2) * 64 + 64
    omega

/-- THE RESULT ARRAY after the region is the layer of the arrays the region is entered with. -/
theorem array (c : Dev nD) : (dat1 V c).arrAt 3 cfg1.N = reluProdArr (aArr V c) (bArr V c) (wArr V c) :=
  (dat1 V c).arrAt_eq_of_cover 3 (reluProdArr (aArr V c) (bArr V c) (wArr V c)) (fun t _ => flushed_eq V c t) cover

end Cert.KernelIdeal.Layer2

end
-- ==== Proof.Layer3.lean ====
/-
  The output layer as the kernel computes it. The aggregated [100000, 64] features are cut into ten tiles of 10000
  rows; at tile `t` the body adds the bias row to every row of the tile, clips the sums below at zero, multiplies with
  the whole [64, 2] weight, adds the output bias row to every row of the product and writes the [10000, 2] block back as
  rows `10000 t …` of the result. Each row of the result depends only on the same row of the features, so the block
  point `t` writes is block `t` of `reluProdBiasArr a b W o`, and the ten blocks tile the result: after the region the
  result array is `reluProdBiasArr a b W o` of the arrays the region is entered with.
-/
import proofs.«403887_j75977971466924_4_alg».proof.Proof.Gen.KernelIdeal.Frame
import proofs.«403887_j75977971466924_4_alg».proof.Proof.DenseLayers
import Idealize.ShloMosaic.Lib.Pipeline.Value

set_option maxRecDepth 16384

noncomputable section

namespace Cert.KernelIdeal.Layer3

open Cert.KernelIdeal Cert.KernelIdeal.Gen Cert.DenseLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block coordinates at point `t`: the features' and the result's row block is `t`, every other coordinate 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The aggregated features, the bias row, the weight and the output bias row as the region finds them. -/
abbrev aArr (c : Dev nD) : S100000x64.Idx → EReal := V c main_v60
abbrev bArr (c : Dev nD) : S1x64.Idx → EReal := V c main_v61
abbrev wArr (c : Dev nD) : S64x2.Idx → EReal := V c main_arg6
abbrev oArr (c : Dev nD) : S1x2.Idx → EReal := V c main_v62
/-- Their blocks at point `t`. -/
abbrev aBlk (c : Dev nD) (t : Fin cfg2.N) : Vec Ideal S10000x64 .f32 := iblk2 V c 0 t
abbrev bBlk (c : Dev nD) (t : Fin cfg2.N) : Vec Ideal S1x64 .f32 := iblk2 V c 1 t
abbrev wBlk (c : Dev nD) (t : Fin cfg2.N) : Vec Ideal S64x2 .f32 := iblk2 V c 2 t
abbrev oBlk (c : Dev nD) (t : Fin cfg2.N) : Vec Ideal S1x2 .f32 := iblk2 V c 3 t

theorem row_lt (t : Fin cfg2.N) (p : Fin 10000) : 10000 * t.val + p.val < 100000 := by
  have hN : cfg2.N = 10 := N_2
  have := t.isLt
  have := p.isLt
  omega

/-- The features' block at point `t` is rows `10000 t …` of the features. -/
theorem aBlk_apply (c : Dev nD) (t : Fin cfg2.N) (p : Fin 10000) (k : Fin 64) :
    aBlk V c t (ix2 p k) = aArr V c (ix2 (⟨10000 * t.val + p.val, row_lt t p⟩ : Fin 100000) k) := by
  obtain ⟨e0, e1, -⟩ := idx_facts t
  show V c main_v60 (((cfg2.win 0).blk t).view.emb (ix2 p k)) = V c main_v60 _
  refine congrArg (V c main_v60) (funext fun a => Fin.ext ?_)
  match a with
  | ⟨0, _⟩ => show win2_0.index t (0 : Fin 2) * 10000 + 1 * p.val = 10000 * t.val + p.val; omega
  | ⟨1, _⟩ => show win2_0.index t (1 : Fin 2) * 64 + 1 * k.val = k.val; omega

/-- The bias row's block at every point is the whole row. -/
theorem bBlk_apply (c : Dev nD) (t : Fin cfg2.N) (k : Fin 64) :
    bBlk V c t (ix2 (0 : Fin 1) k) = bArr V c (ix2 (0 : Fin 1) k) := by
  obtain ⟨-, -, e2, e3, -⟩ := idx_facts t
  show V c main_v61 (((cfg2.win 1).blk t).view.emb (ix2 (0 : Fin 1) k)) = V c main_v61 _
  refine congrArg (V c main_v61) (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- The weight's block at every point is the whole weight. -/
theorem wBlk_apply (c : Dev nD) (t : Fin cfg2.N) (k : Fin 64) (q : Fin 2) :
    wBlk V c t (ix2 k q) = wArr V c (ix2 k q) := by
  obtain ⟨-, -, -, -, e4, e5, -⟩ := idx_facts t
  show V c main_arg6 (((cfg2.win 2).blk t).view.emb (ix2 k q)) = V c main_arg6 _
  refine congrArg (V c main_arg6) (funext fun a => Fin.ext ?_)
  match a with
  | ⟨0, _⟩ => show win2_2.index t (0 : Fin 2) * 64 + 1 * k.val = k.val; omega
  | ⟨1, _⟩ => show win2_2.index t (1 : Fin 2) * 2 + 1 * q.val = q.val; omega

/-- The output bias row's block at every point is the whole row. -/
theorem oBlk_apply (c : Dev nD) (t : Fin cfg2.N) (q : Fin 2) :
    oBlk V c t (ix2 (0 : Fin 1) q) = oArr V c (ix2 (0 : Fin 1) q) := by
  obtain ⟨-, -, -, -, -, -, e6, e7, -⟩ := idx_facts t
  show V c main_v62 (((cfg2.win 3).blk t).view.emb (ix2 (0 : Fin 1) q)) = V c main_v62 _
  refine congrArg (V c main_v62) (funext fun a => Fin.ext ?_)
  match a with
  | ⟨0, _⟩ => show win2_3.index t (0 : Fin 2) * 1 + 1 * 0 = 0; omega
  | ⟨1, _⟩ => show win2_3.index t (1 : Fin 2) * 2 + 1 * q.val = q.val; omega

/-- WHAT POINT `t` WRITES BACK is block `t` of the layer of the arrays the region finds. -/
theorem flushed_eq (c : Dev nD) (t : Fin cfg2.N) :
    (dat2 V c).flushed 4 t
      = ((cfg2.win 4).blk t).view.read (Elt Ideal) (reluProdBiasArr (aArr V c) (bArr V c) (wArr V c) (oArr V c)) := by
  show (cfg2.win 4).cut (grid2.coords t) ((dat2 V c).after 4 t) = _
  rw [after2_4]
  unfold out2_4
  rw [View.canon_unit_zero hz]
  simp only [View.ld_unit_zero (S := S10000x64) hz, View.ld_unit_zero (S := S1x64) hz, View.ld_unit_zero (S := S64x2) hz,
    View.ld_unit_zero (S := S1x2) hz]
  obtain ⟨-, -, -, -, -, -, -, -, e8, e9⟩ := idx_facts t
  refine funext fun (j : S10000x2.Idx) => ?_
  obtain ⟨p, q, rfl⟩ : ∃ (p : Fin 10000) (q : Fin 2), j = ix2 p q := ⟨j 0, j 1, eq_ix2 j⟩
  show k2_pay1 (aBlk V c t) (bBlk V c t) (wBlk V c t) (oBlk V c t) (ix2 p q)
    = reluProdBiasArr (aArr V c) (bArr V c) (wArr V c) (oArr V c) (((cfg2.win 4).blk t).view.emb (ix2 p q))
  have hemb : ((cfg2.win 4).blk t).view.emb (ix2 p q) = ix2 (⟨10000 * t.val + p.val, row_lt t p⟩ : Fin 100000) q :=
    funext fun a => Fin.ext (by
      match a with
      | ⟨0, _⟩ => show win2_4.index t (0 : Fin 2) * 10000 + 1 * p.val = 10000 * t.val + p.val; omega
      | ⟨1, _⟩ => show win2_4.index t (1 : Fin 2) * 2 + 1 * q.val = q.val; omega)
  rw [hemb, reluProdBiasArr_apply]
  unfold k2_pay1
  refine (relu_bias_body_apply _ bitsLt_bf16_f32 shapeCasts_S10000x64_S10000x64 shapeCasts_S1x64_S1x64
    broadcasts_S1x64_S10000x64 shapeCasts_S1x2_S1x2 broadcasts_S1x2_S10000x2
    (aBlk V c t) (bBlk V c t) (wBlk V c t) (oBlk V c t) p q).trans ?_
  rw [oBlk_apply V c t q]
  refine congrArg (· + oArr V c (ix2 (0 : Fin 1) q)) (Finset.sum_congr rfl fun k _ => ?_)
  rw [aBlk_apply V c t p k, bBlk_apply V c t k, wBlk_apply V c t k q]

/-- An index of the result is in point `t`'s block iff its row is among rows `10000 t …`. -/
theorem mem_blk (t : Fin cfg2.N) (i : S100000x2.Idx) :
    i ∈ ((cfg2.win 4).blk t).view.set ↔ ∀ a : Fin 2, win2_4.index t a * S10000x2.size a ≤ (i a).val ∧ (i a).val < win2_4.index t a * S10000x2.size a + S10000x2.size a := by
  show i ∈ ((View.whole main_v63).slice (win2_4.rect t)).set ↔ _
  rw [View.set_slice_whole, Rect.mem_set_unit]
  exact Iff.rfl

/-- Every index of the result lies in the block of the point its row's tile names. -/
theorem cover (i : S100000x2.Idx) :
    ∃ t : Fin cfg2.N, (cfg2.win 4).flush t = true ∧ i ∈ ((cfg2.win 4).blk t).view.set := by
  have hN : cfg2.N = 10 := N_2
  have h0 : (i 0).val < 100000 := idx2_lt0 i
  have h1 : (i 1).val < 2 := idx2_lt1 i
  have ht : (i 0).val / 10000 < cfg2.N := by omega
  obtain ⟨-, -, -, -, -, -, -, -, e8, e9⟩ := idx_facts ⟨(i 0).val / 10000, ht⟩
  refine ⟨⟨(i 0).val / 10000, ht⟩, flush2_4 _, ?_⟩
  rw [mem_blk]
  intro a
  match a with
  | ⟨0, _⟩ =>
    show win2_4.index ⟨(i 0).val / 10000, ht⟩ (0 : Fin 2) * 10000 ≤ (i 0).val ∧ (i 0).val < win2_4.index ⟨(i 0).val / 10000, ht⟩ (0 : Fin 2) * 10000 + 10000
    rw [e8]
    show (i 0).val / 10000 * 10000 ≤ (i 0).val ∧ (i 0).val < (i 0).val / 10000 * 10000 + 10000
    omega
  | ⟨1, _⟩ =>
    show win2_4.index ⟨(i 0).val / 10000, ht⟩ (1 : Fin 2) * 2 ≤ (i 1).val ∧ (i 1).val < win2_4.index ⟨(i 0).val / 10000, ht⟩ (1 : Fin 2) * 2 + 2
    omega

/-- THE RESULT ARRAY after the region is the layer of the arrays the region is entered with. -/
theorem array (c : Dev nD) :
    (dat2 V c).arrAt 4 cfg2.N = reluProdBiasArr (aArr V c) (bArr V c) (wArr V c) (oArr V c) :=
  (dat2 V c).arrAt_eq_of_cover 4 (reluProdBiasArr (aArr V c) (bArr V c) (wArr V c) (oArr V c))
    (fun t _ => flushed_eq V c t) cover

end Cert.KernelIdeal.Layer3

end
-- ==== Proof.RefStages.lean ====
/-
  The reference's run and its stages, brought into scope for the modules that relate them to the kernel's three
  dense layers.
-/
import proofs.«403887_j75977971466924_4_alg».proof.Proof.RefRunP
import proofs.«403887_j75977971466924_4_alg».proof.Proof.RefReadP
-- ==== Proof.RefLayers.lean ====
/-
  The reference, layer by layer. Its program is: the edge table and its symmetric normalisation from the edge list;
  then three times a dense layer followed (twice) by the aggregation over edges — gather the rows at the source nodes,
  scale each by its edge's norm, add into the destination nodes.

  The aggregation is named here once per channel width as a function of the row table, the column table, the norms and
  the array it aggregates (`agg128`, `agg64`): nothing below looks inside it. The dense layers are read at an entry:
  the first is the plain product `prodArr`; the second adds the bias to every row, clips below at zero and multiplies
  (`reluProdArr`); the third does the same and adds the output bias (`reluProdBiasArr`). The reference's result is
  then the three layers and two aggregations composed.
-/
import proofs.«403887_j75977971466924_4_alg».proof.Proof.RefStages
import proofs.«403887_j75977971466924_4_alg».proof.Proof.DenseLayers

noncomputable section

open scoped BigOperators

namespace Cert.ReferenceIdeal.Layers

open Cert.ReferenceIdeal Cert.ReferenceIdeal.Gen Cert.ReferenceIdeal.ReadP Cert.DenseLayers
open Idealize.ShloMosaic Idealize.ShloMosaic.ValueIdx

section Chains

variable {F : FTy → Type} [FloatOps F]

/-- A node index that may be negative, wrapped into the table's range as the gather expects it. -/
def wrapIdx (row : (⟨S1700000, .i32⟩ : BufTy).Contents (Elt F)) : (⟨S1700000x1, .i32⟩ : BufTy).Contents (Elt F) :=
  broadcastInDim S1700000x1 ![0] bcast_S1700000_S1700000x1_0
    (select (cmpi .slt row (broadcastInDim S1700000 ![] bcast_S_S1700000 (constantI S_ 32 0#32)))
      (addi row (broadcastInDim S1700000 ![] bcast_S_S1700000 (constantI S_ 32 100000#32))) row)

/-- The aggregation over edges of a [100000, 128] array: rows gathered at the source nodes, each scaled by its edge's
    norm, added into the destination nodes. -/
def agg128 (row col : (⟨S1700000, .i32⟩ : BufTy).Contents (Elt F)) (nrm : (⟨S1700000, .f32⟩ : BufTy).Contents (Elt F))
    (t : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 col)
    (mulf (Host.gather gather_S100000x128_S1700000x1_S1700000x128_1_0_n_n_0_1_1128 t (wrapIdx row))
      (broadcastInDim S1700000x128 ![0, 1] bcast_S1700000x1_S1700000x128_0_1
        (broadcastInDim S1700000x1 ![0] bcast_S1700000_S1700000x1_0 nrm)))

/-- The same over a [100000, 64] array. -/
def agg64 (row col : (⟨S1700000, .i32⟩ : BufTy).Contents (Elt F)) (nrm : (⟨S1700000, .f32⟩ : BufTy).Contents (Elt F))
    (t : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 col)
    (mulf (Host.gather gather_S100000x64_S1700000x1_S1700000x64_1_0_n_n_0_1_164 t (wrapIdx row))
      (broadcastInDim S1700000x64 ![0, 1] bcast_S1700000x1_S1700000x64_0_1
        (broadcastInDim S1700000x1 ![0] bcast_S1700000_S1700000x1_0 nrm)))

/-- The second dense layer as the reference spells it, of the array it is applied to. -/
def layer2 (a : (⟨S100000x128, .f32⟩ : BufTy).Contents (Elt F)) (x3 : (⟨S128, .f32⟩ : BufTy).Contents (Elt F))
    (x4 : (⟨S128x64, .f32⟩ : BufTy).Contents (Elt F)) : (⟨S100000x64, .f32⟩ : BufTy).Contents (Elt F) :=
  Host.dotGeneral dot_S100000x128_S128x64_S100000x64_1_0_0_1_n_n none
    (maximumf (addf a (val_main_v47 (F := F) x3)) (val_main_call1_v0 (F := F))) x4

/-- The output layer as the reference spells it, of the array it is applied to. -/
def layer3 (a : (⟨S100000x64, .f32⟩ : BufTy).Contents (Elt F)) (x5 : (⟨S64, .f32⟩ : BufTy).Contents (Elt F))
    (x6 : (⟨S64x2, .f32⟩ : BufTy).Contents (Elt F)) (x7 : (⟨S2, .f32⟩ : BufTy).Contents (Elt F)) :
    (⟨S100000x2, .f32⟩ : BufTy).Contents (Elt F) :=
  addf (Host.dotGeneral dot_S100000x64_S64x2_S100000x2_1_0_0_1_n_n none
    (maximumf (addf a (val_main_v65 (F := F) x5)) (val_main_call2_v0 (F := F))) x6) (val_main_v70 (F := F) x7)

variable (x0 : (⟨S100000x165, .f32⟩ : BufTy).Contents (Elt F)) (x1 : (⟨S2x1600000, .i32⟩ : BufTy).Contents (Elt F))
  (x2 : (⟨S165x128, .f32⟩ : BufTy).Contents (Elt F)) (x3 : (⟨S128, .f32⟩ : BufTy).Contents (Elt F))
  (x4 : (⟨S128x64, .f32⟩ : BufTy).Contents (Elt F)) (x5 : (⟨S64, .f32⟩ : BufTy).Contents (Elt F))
  (x6 : (⟨S64x2, .f32⟩ : BufTy).Contents (Elt F)) (x7 : (⟨S2, .f32⟩ : BufTy).Contents (Elt F))

/-- The first aggregation's stage is `agg128` of the edge tables and the first layer's stage. -/
theorem agg1_stage : val_main_v45 (F := F) x0 x1 x2
    = agg128 (val_main_v6 (F := F) x1) (val_main_v8 (F := F) x1) (val_main_v31 (F := F) x1) (val_main_v32 (F := F) x0 x2) := rfl

/-- The second layer's stage is `layer2` of the first aggregation's. -/
theorem layer2_stage : val_main_v50 (F := F) x0 x1 x2 x3 x4 = layer2 (val_main_v45 (F := F) x0 x1 x2) x3 x4 := rfl

/-- The second aggregation's stage is `agg64` of the edge tables and the second layer's stage. -/
theorem agg2_stage : val_main_v63 (F := F) x0 x1 x2 x3 x4
    = agg64 (val_main_v6 (F := F) x1) (val_main_v8 (F := F) x1) (val_main_v31 (F := F) x1) (val_main_v50 (F := F) x0 x1 x2 x3 x4) := rfl

/-- The result's stage is `layer3` of the second aggregation's. -/
theorem layer3_stage : val_main_v71 (F := F) x0 x1 x2 x3 x4 x5 x6 x7
    = layer3 (val_main_v63 (F := F) x0 x1 x2 x3 x4) x5 x6 x7 := rfl

end Chains

/-! ## The dense layers at an entry, on the extended reals -/

/-- The first layer is the plain product. -/
theorem layer1_eq (x0 : (⟨S100000x165, .f32⟩ : BufTy).Contents (Elt Ideal)) (x2 : (⟨S165x128, .f32⟩ : BufTy).Contents (Elt Ideal)) :
    val_main_v32 (F := Ideal) x0 x2 = prodArr x0 x2 := by
  funext i
  obtain ⟨r, q, rfl⟩ : ∃ (r : Fin 100000) (q : Fin 128), i = ix2 r q := ⟨i 0, i 1, eq_ix2 i⟩
  unfold val_main_v32
  exact hostDot_apply _ none x0 x2 r q

/-- The bias of the second layer laid over every row, at an entry. -/
theorem bias128_apply (x3 : (⟨S128, .f32⟩ : BufTy).Contents (Elt Ideal)) (r : Fin 100000) (c : Fin 128) :
    val_main_v47 (F := Ideal) x3 (ix2 r c) = rowOf x3 (ix2 (0 : Fin 1) c) := by
  rw [val_main_v47_apply, val_main_v46_apply]
  exact congrArg x3 (funext fun a => by match a with | ⟨0, _⟩ => rfl)

/-- The bias of the output layer's input laid over every row, at an entry. -/
theorem bias64_apply (x5 : (⟨S64, .f32⟩ : BufTy).Contents (Elt Ideal)) (r : Fin 100000) (c : Fin 64) :
    val_main_v65 (F := Ideal) x5 (ix2 r c) = rowOf x5 (ix2 (0 : Fin 1) c) := by
  rw [val_main_v65_apply, val_main_v64_apply]
  exact congrArg x5 (funext fun a => by match a with | ⟨0, _⟩ => rfl)

/-- The output bias laid over every row, at an entry. -/
theorem bias2_apply (x7 : (⟨S2, .f32⟩ : BufTy).Contents (Elt Ideal)) (r : Fin 100000) (q : Fin 2) :
    val_main_v70 (F := Ideal) x7 (ix2 r q) = rowOf x7 (ix2 (0 : Fin 1) q) := by
  rw [val_main_v70_apply, val_main_v69_apply]
  exact congrArg x7 (funext fun a => by match a with | ⟨0, _⟩ => rfl)

/-- The second layer is `reluProdArr` with the bias as a row. -/
theorem layer2_eq (a : (⟨S100000x128, .f32⟩ : BufTy).Contents (Elt Ideal)) (x3 : (⟨S128, .f32⟩ : BufTy).Contents (Elt Ideal))
    (x4 : (⟨S128x64, .f32⟩ : BufTy).Contents (Elt Ideal)) : layer2 (F := Ideal) a x3 x4 = reluProdArr a (rowOf x3) x4 := by
  funext i
  obtain ⟨r, q, rfl⟩ : ∃ (r : Fin 100000) (q : Fin 64), i = ix2 r q := ⟨i 0, i 1, eq_ix2 i⟩
  unfold layer2
  refine (hostDot_apply _ none _ x4 r q).trans ?_
  rw [reluProdArr_apply]
  refine Finset.sum_congr rfl fun c _ => ?_
  rw [maximumf_apply, addf_apply, bias128_apply, val_main_call1_v0_apply, val_main_call1_cst_apply]
  show max (a (ix2 r c) + rowOf x3 (ix2 (0 : Fin 1) c)) (Ideal.ofBits .f32 0x00000000#32) * _ = _
  rw [Ideal.ofBits_zero_f32]
  rfl

/-- The output layer is `reluProdBiasArr` with both biases as rows. -/
theorem layer3_eq (a : (⟨S100000x64, .f32⟩ : BufTy).Contents (Elt Ideal)) (x5 : (⟨S64, .f32⟩ : BufTy).Contents (Elt Ideal))
    (x6 : (⟨S64x2, .f32⟩ : BufTy).Contents (Elt Ideal)) (x7 : (⟨S2, .f32⟩ : BufTy).Contents (Elt Ideal)) :
    layer3 (F := Ideal) a x5 x6 x7 = reluProdBiasArr a (rowOf x5) x6 (rowOf x7) := by
  funext i
  obtain ⟨r, q, rfl⟩ : ∃ (r : Fin 100000) (q : Fin 2), i = ix2 r q := ⟨i 0, i 1, eq_ix2 i⟩
  unfold layer3
  rw [addf_apply, bias2_apply, reluProdBiasArr_apply]
  refine congrArg (· + rowOf x7 (ix2 (0 : Fin 1) q)) ?_
  refine (hostDot_apply _ none _ x6 r q).trans ?_
  refine Finset.sum_congr rfl fun c _ => ?_
  rw [maximumf_apply, addf_apply, bias64_apply, val_main_call2_v0_apply, val_main_call2_cst_apply]
  show max (a (ix2 r c) + rowOf x5 (ix2 (0 : Fin 1) c)) (Ideal.ofBits .f32 0x00000000#32) * _ = _
  rw [Ideal.ofBits_zero_f32]
  rfl

/-! ## The whole network -/

/-- The network as one function of the eight arguments: product, aggregation, bias–clip–product, aggregation,
    bias–clip–product–bias; the edge tables and the norms are the reference's own stages of the edge list. -/
def network (x0 : (⟨S100000x165, .f32⟩ : BufTy).Contents (Elt Ideal)) (x1 : (⟨S2x1600000, .i32⟩ : BufTy).Contents (Elt Ideal))
    (x2 : (⟨S165x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x2, .f32⟩ : BufTy).Contents (Elt Ideal)) (x7 : (⟨S2, .f32⟩ : BufTy).Contents (Elt Ideal)) :
    (⟨S100000x2, .f32⟩ : BufTy).Contents (Elt Ideal) :=
  reluProdBiasArr
    (agg64 (val_main_v6 (F := Ideal) x1) (val_main_v8 (F := Ideal) x1) (val_main_v31 (F := Ideal) x1)
      (reluProdArr
        (agg128 (val_main_v6 (F := Ideal) x1) (val_main_v8 (F := Ideal) x1) (val_main_v31 (F := Ideal) x1) (prodArr x0 x2))
        (rowOf x3) x4))
    (rowOf x5) x6 (rowOf x7)

/-- The reference's result stage is the network. -/
theorem reference_eq (x0 : (⟨S100000x165, .f32⟩ : BufTy).Contents (Elt Ideal)) (x1 : (⟨S2x1600000, .i32⟩ : BufTy).Contents (Elt Ideal))
    (x2 : (⟨S165x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x2, .f32⟩ : BufTy).Contents (Elt Ideal)) (x7 : (⟨S2, .f32⟩ : BufTy).Contents (Elt Ideal)) :
    val_main_v71 (F := Ideal) x0 x1 x2 x3 x4 x5 x6 x7 = network x0 x1 x2 x3 x4 x5 x6 x7 := by
  rw [layer3_stage, agg2_stage, layer2_stage, agg1_stage, layer1_eq, layer2_eq, layer3_eq]
  rfl

end Cert.ReferenceIdeal.Layers

end
-- ==== Proof.KernelFold.lean ====
/-
  The kernel program's result, read back through its run. The program is eight segments: three stretches of host
  operations (the edge tables and the norms), the first dense layer, a stretch (the first aggregation and the bias row),
  the second dense layer, a stretch (the second aggregation and two bias rows), the output layer. The contents of the
  buffers at each boundary are a fold from the launch memory; this module reads that fold at the buffers that matter:

  * an argument, and an edge table once computed, is written by nothing later, so it is the same at every later boundary;
  * the edge tables and the norms are the reference's own stages of the edge list (the two programs spell these
    operations alike);
  * after each aggregation stretch its result is the aggregation `agg128` / `agg64` — one opaque function, never opened —
    of the tables and of the array the region before it left;
  * after each region its result array is that layer's function of the arrays it was entered with.

  Composed, the result array at the last boundary is the network of the eight arguments.
-/
import proofs.«403887_j75977971466924_4_alg».proof.Proof.KernelRun
import proofs.«403887_j75977971466924_4_alg».proof.Proof.Layer1
import proofs.«403887_j75977971466924_4_alg».proof.Proof.Layer2
import proofs.«403887_j75977971466924_4_alg».proof.Proof.Layer3
import proofs.«403887_j75977971466924_4_alg».proof.Proof.RefLayers
import Idealize.ShloMosaic.Lib.ValueLayout

set_option maxRecDepth 16384

noncomputable section

namespace Cert.KernelIdeal.Fold

open Cert.KernelIdeal Cert.KernelIdeal.Gen Cert.DenseLayers
open Cert.ReferenceIdeal.ReadP (val_main_v6 val_main_v8 val_main_v31)
open Cert.ReferenceIdeal.Layers (agg128 agg64 network)
open Idealize.ShloMosaic Idealize.ShloMosaic.TcCoe Idealize.ShloMosaic.ValueIdx Idealize.SL.Sem
open Idealize.ShloMosaic.StableHlo

/-- A stretch of host operations leaves a buffer none of them writes as it was. -/
macro "stretch_keeps" : tactic => `(tactic| (
  refine StableHlo.after_of_forall_not_mem _ _ (List.forall_iff_forall_mem.mp ?_)
  simp only [hostOps0, hostOps0_1, hostOps0_2, hostOps1, hostOps2, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

section Host

variable {F : FTy → Type} [FloatOps F]
variable (m : (ℓ : Loc nD τ sig) → Buf (Elt F) ℓ) (ρ : Dev nD → PrngReg)

/-! ## What nothing writes stays -/

/-- A buffer the first three stretches do not write holds its launch contents when the first region is entered. -/
theorem at3_of_keeps (c : Dev nD) (r : Ref sig .tc)
    (k0 : after hostOps0 (W0 m ρ c) (Proc.devRef .tc r) = W0 m ρ c (Proc.devRef .tc r))
    (k1 : after hostOps0_1 (W1 m ρ c) (Proc.devRef .tc r) = W1 m ρ c (Proc.devRef .tc r))
    (k2 : after hostOps0_2 (W2 m ρ c) (Proc.devRef .tc r) = W2 m ρ c (Proc.devRef .tc r)) :
    W3 m ρ c (Proc.devRef .tc r) = m ((c : Thread nD τ).loc r) :=
  k2.trans (k1.trans (k0.trans rfl))

theorem arg0_at3 (c : Dev nD) : W3 m ρ c (Proc.devRef .tc main_arg0) = m ((c : Thread nD τ).loc main_arg0) :=
  at3_of_keeps m ρ c main_arg0 (by stretch_keeps) (by stretch_keeps) (by stretch_keeps)
theorem arg2_at3 (c : Dev nD) : W3 m ρ c (Proc.devRef .tc main_arg2) = m ((c : Thread nD τ).loc main_arg2) :=
  at3_of_keeps m ρ c main_arg2 (by stretch_keeps) (by stretch_keeps) (by stretch_keeps)
theorem arg3_at3 (c : Dev nD) : W3 m ρ c (Proc.devRef .tc main_arg3) = m ((c : Thread nD τ).loc main_arg3) :=
  at3_of_keeps m ρ c main_arg3 (by stretch_keeps) (by stretch_keeps) (by stretch_keeps)
theorem arg4_at3 (c : Dev nD) : W3 m ρ c (Proc.devRef .tc main_arg4) = m ((c : Thread nD τ).loc main_arg4) :=
  at3_of_keeps m ρ c main_arg4 (by stretch_keeps) (by stretch_keeps) (by stretch_keeps)
theorem arg5_at3 (c : Dev nD) : W3 m ρ c (Proc.devRef .tc main_arg5) = m ((c : Thread nD τ).loc main_arg5) :=
  at3_of_keeps m ρ c main_arg5 (by stretch_keeps) (by stretch_keeps) (by stretch_keeps)
theorem arg6_at3 (c : Dev nD) : W3 m ρ c (Proc.devRef .tc main_arg6) = m ((c : Thread nD τ).loc main_arg6) :=
  at3_of_keeps m ρ c main_arg6 (by stretch_keeps) (by stretch_keeps) (by stretch_keeps)
theorem arg7_at3 (c : Dev nD) : W3 m ρ c (Proc.devRef .tc main_arg7) = m ((c : Thread nD τ).loc main_arg7) :=
  at3_of_keeps m ρ c main_arg7 (by stretch_keeps) (by stretch_keeps) (by stretch_keeps)

/-- A buffer that is no array of the first region and that the fourth stretch does not write is, when the second
    region is entered, what it was when the first was. -/
theorem at5_of_keeps (c : Dev nD) (r : Ref sig .tc) (h0 : ∀ w, Pipeline.arrRef spec0 w ≠ r)
    (k : after hostOps1 (W4 m ρ c) (Proc.devRef .tc r) = W4 m ρ c (Proc.devRef .tc r)) :
    W5 m ρ c (Proc.devRef .tc r) = W3 m ρ c (Proc.devRef .tc r) :=
  k.trans (W4_of_ne m ρ c r h0)

/-- The same one region further: no array of the second region, not written by the fifth stretch. -/
theorem at7_of_keeps (c : Dev nD) (r : Ref sig .tc) (h0 : ∀ w, Pipeline.arrRef spec0 w ≠ r)
    (k1 : after hostOps1 (W4 m ρ c) (Proc.devRef .tc r) = W4 m ρ c (Proc.devRef .tc r))
    (h1 : ∀ w, Pipeline.arrRef spec1 w ≠ r)
    (k2 : after hostOps2 (W6 m ρ c) (Proc.devRef .tc r) = W6 m ρ c (Proc.devRef .tc r)) :
    W7 m ρ c (Proc.devRef .tc r) = W3 m ρ c (Proc.devRef .tc r) :=
  k2.trans ((W6_of_ne m ρ c r h1).trans (at5_of_keeps m ρ c r h0 k1))

/-! ## The edge tables and the norms -/

/-- The row table (source nodes, self loops appended) when the first region is entered. -/
theorem row_at3 (c : Dev nD) :
    W3 m ρ c (Proc.devRef .tc main_v6) = val_main_v6 (F := F) (m ((c : Thread nD τ).loc main_arg1)) := by
  show after hostOps0_2 (after hostOps0_1 (after hostOps0 (W0 m ρ c))) (Proc.devRef .tc main_v6) = _
  after_results_simp <;> (try simp only [TRef.ofBuf, TRef.toBuf, cast_eq]) <;> rfl

/-- The column table (destination nodes, self loops appended). -/
theorem col_at3 (c : Dev nD) :
    W3 m ρ c (Proc.devRef .tc main_v8) = val_main_v8 (F := F) (m ((c : Thread nD τ).loc main_arg1)) := by
  show after hostOps0_2 (after hostOps0_1 (after hostOps0 (W0 m ρ c))) (Proc.devRef .tc main_v8) = _
  after_results_simp <;> (try simp only [TRef.ofBuf, TRef.toBuf, cast_eq]) <;> rfl

/-- The norm of every edge: the product of the inverse square roots of its two ends' degrees. -/
theorem nrm_at3 (c : Dev nD) :
    W3 m ρ c (Proc.devRef .tc main_v31) = val_main_v31 (F := F) (m ((c : Thread nD τ).loc main_arg1)) := by
  show after hostOps0_2 (after hostOps0_1 (after hostOps0 (W0 m ρ c))) (Proc.devRef .tc main_v31) = _
  after_results_simp <;> (try simp only [TRef.ofBuf, TRef.toBuf, cast_eq]) <;> rfl

/-! ## The aggregation stretches -/

/-- After the fourth stretch the first aggregation's buffer holds `agg128` of the tables, the norms and the first
    region's result as the region left them. -/
theorem agg1_at5 (c : Dev nD) :
    W5 m ρ c (Proc.devRef .tc main_v45)
      = agg128 (F := F) (W4 m ρ c (Proc.devRef .tc main_v6)) (W4 m ρ c (Proc.devRef .tc main_v8))
          (W4 m ρ c (Proc.devRef .tc main_v31)) (W4 m ρ c (Proc.devRef .tc main_v32)) := by
  show after hostOps1 (W4 m ρ c) (Proc.devRef .tc main_v45) = _
  after_results
  rfl

/-- The first bias as the one row of a [1, 128] array. -/
theorem bias1_at5 (c : Dev nD) :
    W5 m ρ c (Proc.devRef .tc main_v46)
      = shapeCast S1x128 (W4 m ρ c (Proc.devRef .tc main_arg3)) shapeCasts_S128_S1x128 := by
  show after hostOps1 (W4 m ρ c) (Proc.devRef .tc main_v46) = _
  after_results
  rfl

/-- After the fifth stretch the second aggregation's buffer holds `agg64` of the tables, the norms and the second
    region's result. -/
theorem agg2_at7 (c : Dev nD) :
    W7 m ρ c (Proc.devRef .tc main_v60)
      = agg64 (F := F) (W6 m ρ c (Proc.devRef .tc main_v6)) (W6 m ρ c (Proc.devRef .tc main_v8))
          (W6 m ρ c (Proc.devRef .tc main_v31)) (W6 m ρ c (Proc.devRef .tc main_v47)) := by
  show after hostOps2 (W6 m ρ c) (Proc.devRef .tc main_v60) = _
  after_results
  rfl

/-- The second bias as the one row of a [1, 64] array. -/
theorem bias2_at7 (c : Dev nD) :
    W7 m ρ c (Proc.devRef .tc main_v61)
      = shapeCast S1x64 (W6 m ρ c (Proc.devRef .tc main_arg5)) shapeCasts_S64_S1x64 := by
  show after hostOps2 (W6 m ρ c) (Proc.devRef .tc main_v61) = _
  after_results
  rfl

/-- The output bias as the one row of a [1, 2] array. -/
theorem bias3_at7 (c : Dev nD) :
    W7 m ρ c (Proc.devRef .tc main_v62)
      = shapeCast S1x2 (W6 m ρ c (Proc.devRef .tc main_arg7)) shapeCasts_S2_S1x2 := by
  show after hostOps2 (W6 m ρ c) (Proc.devRef .tc main_v62) = _
  after_results
  rfl

/-! ## The tables, the norms and the arguments at the later boundaries -/

theorem row_at4 (c : Dev nD) :
    W4 m ρ c (Proc.devRef .tc main_v6) = val_main_v6 (F := F) (m ((c : Thread nD τ).loc main_arg1)) :=
  (W4_of_ne m ρ c main_v6 (by decide)).trans (row_at3 m ρ c)
theorem col_at4 (c : Dev nD) :
    W4 m ρ c (Proc.devRef .tc main_v8) = val_main_v8 (F := F) (m ((c : Thread nD τ).loc main_arg1)) :=
  (W4_of_ne m ρ c main_v8 (by decide)).trans (col_at3 m ρ c)
theorem nrm_at4 (c : Dev nD) :
    W4 m ρ c (Proc.devRef .tc main_v31) = val_main_v31 (F := F) (m ((c : Thread nD τ).loc main_arg1)) :=
  (W4_of_ne m ρ c main_v31 (by decide)).trans (nrm_at3 m ρ c)

theorem row_at6 (c : Dev nD) :
    W6 m ρ c (Proc.devRef .tc main_v6) = val_main_v6 (F := F) (m ((c : Thread nD τ).loc main_arg1)) :=
  (W6_of_ne m ρ c main_v6 (by decide)).trans
    ((at5_of_keeps m ρ c main_v6 (by decide) (by stretch_keeps)).trans (row_at3 m ρ c))
theorem col_at6 (c : Dev nD) :
    W6 m ρ c (Proc.devRef .tc main_v8) = val_main_v8 (F := F) (m ((c : Thread nD τ).loc main_arg1)) :=
  (W6_of_ne m ρ c main_v8 (by decide)).trans
    ((at5_of_keeps m ρ c main_v8 (by decide) (by stretch_keeps)).trans (col_at3 m ρ c))
theorem nrm_at6 (c : Dev nD) :
    W6 m ρ c (Proc.devRef .tc main_v31) = val_main_v31 (F := F) (m ((c : Thread nD τ).loc main_arg1)) :=
  (W6_of_ne m ρ c main_v31 (by decide)).trans
    ((at5_of_keeps m ρ c main_v31 (by decide) (by stretch_keeps)).trans (nrm_at3 m ρ c))

theorem arg3_at4 (c : Dev nD) : W4 m ρ c (Proc.devRef .tc main_arg3) = m ((c : Thread nD τ).loc main_arg3) :=
  (W4_of_ne m ρ c main_arg3 (by decide)).trans (arg3_at3 m ρ c)
theorem arg4_at5 (c : Dev nD) : W5 m ρ c (Proc.devRef .tc main_arg4) = m ((c : Thread nD τ).loc main_arg4) :=
  (at5_of_keeps m ρ c main_arg4 (by decide) (by stretch_keeps)).trans (arg4_at3 m ρ c)
theorem arg5_at6 (c : Dev nD) : W6 m ρ c (Proc.devRef .tc main_arg5) = m ((c : Thread nD τ).loc main_arg5) :=
  (W6_of_ne m ρ c main_arg5 (by decide)).trans
    ((at5_of_keeps m ρ c main_arg5 (by decide) (by stretch_keeps)).trans (arg5_at3 m ρ c))
theorem arg7_at6 (c : Dev nD) : W6 m ρ c (Proc.devRef .tc main_arg7) = m ((c : Thread nD τ).loc main_arg7) :=
  (W6_of_ne m ρ c main_arg7 (by decide)).trans
    ((at5_of_keeps m ρ c main_arg7 (by decide) (by stretch_keeps)).trans (arg7_at3 m ρ c))
theorem arg6_at7 (c : Dev nD) : W7 m ρ c (Proc.devRef .tc main_arg6) = m ((c : Thread nD τ).loc main_arg6) :=
  (at7_of_keeps m ρ c main_arg6 (by decide) (by stretch_keeps) (by decide) (by stretch_keeps)).trans (arg6_at3 m ρ c)

end Host

/-! ## The three regions' results and the network, on the extended reals -/

section Network

variable (m : (ℓ : Loc nD τ sig) → Buf (Elt Ideal) ℓ) (ρ : Dev nD → PrngReg)

/-- After the first region its result array is the product of the features with the first weight. -/
theorem m1_at4 (c : Dev nD) :
    W4 m ρ c (Proc.devRef .tc main_v32)
      = prodArr (N := 100000) (K := 165) (M := 128) (m ((c : Thread nD τ).loc main_arg0)) (m ((c : Thread nD τ).loc main_arg2)) := by
  refine ((W4_arr m ρ c 2).trans (Layer1.array (V3 m ρ) c)).trans ?_
  show prodArr (N := 100000) (K := 165) (M := 128) (W3 m ρ c (Proc.devRef .tc main_arg0)) (W3 m ρ c (Proc.devRef .tc main_arg2)) = _
  rw [arg0_at3, arg2_at3]

/-- A vector recast as a one-row array is `rowOf` of it. -/
theorem cast_row {K : Nat} (v : (⟨1, ![K]⟩ : Shape).Idx → EReal) (h : (⟨1, ![K]⟩ : Shape).ShapeCasts ⟨2, ![1, K]⟩) :
    shapeCast ⟨2, ![1, K]⟩ v h = rowOf v := by
  funext j
  obtain ⟨u, k, rfl⟩ : ∃ (u : Fin 1) (k : Fin K), j = ix2 u k := ⟨j 0, j 1, eq_ix2 j⟩
  exact shapeCast_a_1a_apply v h u k

theorem bias1_row (c : Dev nD) :
    W5 m ρ c (Proc.devRef .tc main_v46) = rowOf (K := 128) (m ((c : Thread nD τ).loc main_arg3)) := by
  rw [bias1_at5, arg3_at4]
  exact cast_row _ _

theorem bias2_row (c : Dev nD) :
    W7 m ρ c (Proc.devRef .tc main_v61) = rowOf (K := 64) (m ((c : Thread nD τ).loc main_arg5)) := by
  rw [bias2_at7, arg5_at6]
  exact cast_row _ _

theorem bias3_row (c : Dev nD) :
    W7 m ρ c (Proc.devRef .tc main_v62) = rowOf (K := 2) (m ((c : Thread nD τ).loc main_arg7)) := by
  rw [bias3_at7, arg7_at6]
  exact cast_row _ _

/-- The first aggregation of the first layer's result. -/
theorem agg1_val (c : Dev nD) :
    W5 m ρ c (Proc.devRef .tc main_v45)
      = agg128 (F := Ideal) (val_main_v6 (F := Ideal) (m ((c : Thread nD τ).loc main_arg1)))
          (val_main_v8 (F := Ideal) (m ((c : Thread nD τ).loc main_arg1)))
          (val_main_v31 (F := Ideal) (m ((c : Thread nD τ).loc main_arg1)))
          (prodArr (N := 100000) (K := 165) (M := 128) (m ((c : Thread nD τ).loc main_arg0)) (m ((c : Thread nD τ).loc main_arg2))) := by
  rw [agg1_at5, row_at4, col_at4, nrm_at4, m1_at4]

/-- After the second region its result array is the second layer of the first aggregation. -/
theorem m2_at6 (c : Dev nD) :
    W6 m ρ c (Proc.devRef .tc main_v47)
      = reluProdArr (N := 100000) (K := 128) (M := 64)
          (agg128 (F := Ideal) (val_main_v6 (F := Ideal) (m ((c : Thread nD τ).loc main_arg1)))
            (val_main_v8 (F := Ideal) (m ((c : Thread nD τ).loc main_arg1)))
            (val_main_v31 (F := Ideal) (m ((c : Thread nD τ).loc main_arg1)))
            (prodArr (N := 100000) (K := 165) (M := 128) (m ((c : Thread nD τ).loc main_arg0)) (m ((c : Thread nD τ).loc main_arg2))))
          (rowOf (K := 128) (m ((c : Thread nD τ).loc main_arg3))) (m ((c : Thread nD τ).loc main_arg4)) := by
  refine ((W6_arr m ρ c 3).trans (Layer2.array (V5 m ρ) c)).trans ?_
  show reluProdArr (N := 100000) (K := 128) (M := 64) (W5 m ρ c (Proc.devRef .tc main_v45))
    (W5 m ρ c (Proc.devRef .tc main_v46)) (W5 m ρ c (Proc.devRef .tc main_arg4)) = _
  rw [agg1_val, bias1_row, arg4_at5]

/-- The second aggregation of the second layer's result. -/
theorem agg2_val (c : Dev nD) :
    W7 m ρ c (Proc.devRef .tc main_v60)
      = agg64 (F := Ideal) (val_main_v6 (F := Ideal) (m ((c : Thread nD τ).loc main_arg1)))
          (val_main_v8 (F := Ideal) (m ((c : Thread nD τ).loc main_arg1)))
          (val_main_v31 (F := Ideal) (m ((c : Thread nD τ).loc main_arg1)))
          (reluProdArr (N := 100000) (K := 128) (M := 64)
            (agg128 (F := Ideal) (val_main_v6 (F := Ideal) (m ((c : Thread nD τ).loc main_arg1)))
              (val_main_v8 (F := Ideal) (m ((c : Thread nD τ).loc main_arg1)))
              (val_main_v31 (F := Ideal) (m ((c : Thread nD τ).loc main_arg1)))
              (prodArr (N := 100000) (K := 165) (M := 128) (m ((c : Thread nD τ).loc main_arg0)) (m ((c : Thread nD τ).loc main_arg2))))
            (rowOf (K := 128) (m ((c : Thread nD τ).loc main_arg3))) (m ((c : Thread nD τ).loc main_arg4))) := by
  rw [agg2_at7, row_at6, col_at6, nrm_at6, m2_at6]

/-- THE RESULT at the last boundary is the network of the eight arguments. -/
theorem result_eq (c : Dev nD) :
    W8 m ρ c (Proc.devRef .tc main_v63)
      = network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine ((W8_arr m ρ c 4).trans (Layer3.array (V7 m ρ) c)).trans ?_
  show reluProdBiasArr (N := 100000) (K := 64) (M := 2) (W7 m ρ c (Proc.devRef .tc main_v60))
    (W7 m ρ c (Proc.devRef .tc main_v61)) (W7 m ρ c (Proc.devRef .tc main_arg6)) (W7 m ρ c (Proc.devRef .tc main_v62)) = _
  rw [agg2_val, bias2_row, arg6_at7, bias3_row]
  rfl

end Network

end Cert.KernelIdeal.Fold

end
-- ==== Proof.lean ====
/-
  The graph convolution network — two convolutions (dense transform, aggregation over the edges with the symmetric
  normalisation, bias, clip at zero) and an output linear layer — computed by three tiled kernels with the edge
  aggregations between them on the host, against the same network written with whole-array products.

  On the extended reals the two programs are the same function of their eight arguments: the edge tables, the norms and
  the two aggregations are the same operations in both, and each tiled kernel computes, block of rows by block of rows,
  the layer the reference computes at once (a row of a product depends only on the same row of the left operand; a
  change of float format is the identity; the matrix unit's product into a zero accumulator is the plain finite sum).
  No law of arithmetic beyond that is used, so the precondition is never opened.

  The three frames are the generated ones (the reference's is its run with the result dropped); the idealization
  rewrote nothing, so `preserves` is trivial; `algebraic` states both runs' results as `network` of the arguments.
-/
import proofs.«403887_j75977971466924_4_alg».proof.Defs
import proofs.«403887_j75977971466924_4_alg».proof.Proof.Gen.Kernel
import proofs.«403887_j75977971466924_4_alg».proof.Proof.Gen.Kernel.Skeleton
import proofs.«403887_j75977971466924_4_alg».proof.Proof.Gen.Kernel.Launch
import proofs.«403887_j75977971466924_4_alg».proof.Proof.Gen.Kernel.Points
import proofs.«403887_j75977971466924_4_alg».proof.Proof.Gen.Kernel.Frame
import proofs.«403887_j75977971466924_4_alg».proof.Proof.Gen.KernelIdeal
import proofs.«403887_j75977971466924_4_alg».proof.Proof.Gen.KernelIdeal.Skeleton
import proofs.«403887_j75977971466924_4_alg».proof.Proof.Gen.KernelIdeal.Launch
import proofs.«403887_j75977971466924_4_alg».proof.Proof.Gen.KernelIdeal.Points
import proofs.«403887_j75977971466924_4_alg».proof.Proof.Gen.KernelIdeal.Frame
import proofs.«403887_j75977971466924_4_alg».proof.Proof.Gen.ReferenceIdeal
import proofs.«403887_j75977971466924_4_alg».proof.Proof.Gen.Pre_finite_inputs
import proofs.«403887_j75977971466924_4_alg».proof.Proof.KernelRun
import proofs.«403887_j75977971466924_4_alg».proof.Proof.KernelFold
import proofs.«403887_j75977971466924_4_alg».proof.Proof.RefStages
import proofs.«403887_j75977971466924_4_alg».proof.Proof.RefLayers
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both programs end with the result array at the network of the arguments. -/
theorem algebraic : Cert.algebraic_KernelIdeal_ReferenceIdeal := by
  intro m ρ m' ρ' _ hagree
  refine ⟨fun c => Cert.ReferenceIdeal.Layers.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.result_eq m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5, h6, h7⟩ := hagree c
    rw [Cert.ReferenceIdeal.ReadP.val_main_v71_eq, Cert.ReferenceIdeal.Layers.reference_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
